-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 97
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x128, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x1, .f32⟩
  | .hbm, ⟨80, _⟩ => ⟨S1650000x64, .f32⟩
  | .hbm, ⟨81, _⟩ => ⟨S1650000x64, .f32⟩
  | .hbm, ⟨82, _⟩ => ⟨S_, .f32⟩
  | .hbm, ⟨83, _⟩ => ⟨S50000x64, .f32⟩
  | .hbm, ⟨84, _⟩ => ⟨S1650000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000x64, .f32⟩
  | .hbm, ⟨96, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S50000x128, .f32⟩
  | 14 => ⟨S_, .f32⟩
  | 15 => ⟨S1650000, .f32⟩
  | 16 => ⟨S_, .f32⟩
  | 17 => ⟨S50000, .f32⟩
  | 18 => ⟨S1650000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x64, .f32⟩
  | 70 => ⟨S_, .f32⟩
  | 71 => ⟨S1650000, .f32⟩
  | 72 => ⟨S_, .f32⟩
  | 73 => ⟨S50000, .f32⟩
  | 74 => ⟨S1650000x1, .i32⟩
  | 75 => ⟨S50000, .f32⟩
  | 76 => ⟨S_, .f32⟩
  | 77 => ⟨S50000, .f32⟩
  | 78 => ⟨S50000, .i1⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S1650000, .i32⟩
  | 86 => ⟨S1650000, .i1⟩
  | 87 => ⟨S_, .i32⟩
  | 88 => ⟨S1650000, .i32⟩
  | 89 => ⟨S1650000, .i32⟩
  | 90 => ⟨S1650000, .i32⟩
  | 91 => ⟨S1650000x1, .i32⟩
  | 92 => ⟨S1650000, .f32⟩
  | 93 => ⟨S_, .i32⟩
  | 94 => ⟨S1650000, .i32⟩
  | 95 => ⟨S1650000, .i1⟩
  | 96 => ⟨S_, .i32⟩
  | 97 => ⟨S1650000, .i32⟩
  | 98 => ⟨S1650000, .i32⟩
  | 99 => ⟨S1650000, .i32⟩
  | 100 => ⟨S1650000x1, .i32⟩
  | 101 => ⟨S1650000, .f32⟩
  | 102 => ⟨S1650000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000x64, .f32⟩
  | 112 => ⟨S1650000x1, .f32⟩
  | 113 => ⟨S1650000x64, .f32⟩
  | 114 => ⟨S1650000x64, .f32⟩
  | 115 => ⟨S_, .f32⟩
  | 116 => ⟨S50000x64, .f32⟩
  | 117 => ⟨S1650000x1, .i32⟩
  | 118 => ⟨S50000x64, .f32⟩
  | 119 => ⟨S1x64, .f32⟩
  | 120 => ⟨S50000x64, .f32⟩
  | 121 => ⟨S50000x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S50000x64, .f32⟩
  | 1 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.GcnSpec.lean ====
/-
  The host side of a two-layer graph convolution, as pure functions of its inputs.

  The edge list e : [2, 1600000] gives sources e[0] and targets e[1]; a self-loop per node is appended, so both index
  vectors have 1650000 entries.  A node's degree is the number of entries of the target vector naming it (a
  scatter-add of ones), its weight is 1 / sqrt(degree) where the degree is positive and 0 elsewhere, and an edge's
  coefficient is the product of the weights of its two ends (negative indices wrapped by the node count first, as
  jnp indexing does).  A layer gathers the rows of its input at the sources, scales each by the edge's
  coefficient, adds them up at the targets and adds the bias row.  The first layer is followed by max(., 0), the second
  by the logistic function 1 / (1 + exp(-.)).  The dense products in front of the two layers are NOT part of
  these functions: they are what the two programs compute differently.
-/
import proofs.«179644_j13907104104963_1_alg».proof.Proof.Gen.KernelIdeal

noncomputable section

namespace Cert.Gcn

open Cert.KernelIdeal Cert.KernelIdeal.Facts₀ Idealize.ShloMosaic

variable (F : FTy → Type) [FloatOps F]

/-- Contents of a float / an index / a one-bit array of a literal shape. -/
abbrev Cf (S : Shape) : Type := (⟨S, .f32⟩ : BufTy).Contents (Elt F)
abbrev Ci (S : Shape) : Type := (⟨S, .i32⟩ : BufTy).Contents (Elt F)

variable {F}

/-- Row r of the edge list followed by 0, 1, ..., 49999 (the self-loops). -/
def srcOf (e : Ci F S2x1600000) : Ci F S1650000 :=
  concatenate S1650000 0 [⟨S1600000, shapeCast S1600000 (extractStridedSlice S1x1600000 ![0, 0] e slices_S2x1600000_S1x1600000_0_0) shapeCasts_S1x1600000_S1600000⟩, ⟨S50000, iotaInDim S50000 32 0⟩] concatenates_S1600000_S50000_S1650000_d0

def dstOf (e : Ci F S2x1600000) : Ci F S1650000 :=
  concatenate S1650000 0 [⟨S1600000, shapeCast S1600000 (extractStridedSlice S1x1600000 ![1, 0] e slices_S2x1600000_S1x1600000_1_0) shapeCasts_S1x1600000_S1600000⟩, ⟨S50000, iotaInDim S50000 32 0⟩] concatenates_S1600000_S50000_S1650000_d0

/-- An index vector with its negative entries moved up by the node count, as a column of start indices. -/
def wrapIdx (s : Ci F S1650000) : Ci F S1650000x1 :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- Each node's degree: how many entries of the target vector name it. -/
def degOf (d : Ci F S1650000) : Cf F S50000 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 d)
    (broadcastInDim S1650000 ![] bcast_S_S1650000 (constant S_ .f32 0x3F800000#32))

/-- Each node's weight: 1 / sqrt(degree) where the degree is positive, 0 elsewhere. -/
def dinvOf (d : Ci F S1650000) : Cf F S50000 :=
  select (cmpf (F := F) .ogt (degOf d) (broadcastInDim S50000 ![] bcast_S_S50000 (constant S_ .f32 0x00000000#32)))
    (Host.rsqrt (degOf d))
    (broadcastInDim S50000 ![] bcast_S_S50000 (id (constant S_ .f32 0x00000000#32)))

/-- Each edge's coefficient: the product of the weights of its two ends. -/
def normOf (s d : Ci F S1650000) : Cf F S1650000 :=
  mulf (Host.gather gather_S50000_S1650000x1_S1650000_n_0_n_n_0_1_1 (dinvOf d) (wrapIdx s))
    (Host.gather gather_S50000_S1650000x1_S1650000_n_0_n_n_0_1_1 (dinvOf d) (wrapIdx d))

/-- One layer's aggregation at width 128: rows gathered at the sources, scaled, summed at the targets, plus the bias. -/
def agg128 (h : Cf F S50000x128) (s d : Ci F S1650000) (nrm : Cf F S1650000) (b : Cf F S128) : Cf F S50000x128 :=
  addf
    (Host.scatterAdd scatter_S50000x128_S1650000x1_S1650000x128_1_0_0_1
      (broadcastInDim S50000x128 ![] bcast_S_S50000x128 (constant S_ .f32 0x00000000#32))
      (broadcastInDim S1650000x1 ![0] bcast_S1650000_S1650000x1_0 d)
      (mulf (Host.gather gather_S50000x128_S1650000x1_S1650000x128_1_0_n_n_0_1_1128 h (wrapIdx s))
        (broadcastInDim S1650000x128 ![0, 1] bcast_S1650000x1_S1650000x128_0_1
          (broadcastInDim S1650000x1 ![0] bcast_S1650000_S1650000x1_0 nrm))))
    (broadcastInDim S50000x128 ![0, 1] bcast_S1x128_S50000x128_0_1 (broadcastInDim S1x128 ![1] bcast_S128_S1x128_1 b))

/-- max(., 0), entry by entry. -/
def reluOf (h : Cf F S50000x128) : Cf F S50000x128 :=
  maximumf h (broadcastInDim S50000x128 ![] bcast_S_S50000x128 (constant S_ .f32 0x00000000#32))

/-- The same aggregation at width 64. -/
def agg64 (h : Cf F S50000x64) (s d : Ci F S1650000) (nrm : Cf F S1650000) (b : Cf F S64) : Cf F S50000x64 :=
  addf
    (Host.scatterAdd scatter_S50000x64_S1650000x1_S1650000x64_1_0_0_1
      (broadcastInDim S50000x64 ![] bcast_S_S50000x64 (constant S_ .f32 0x00000000#32))
      (broadcastInDim S1650000x1 ![0] bcast_S1650000_S1650000x1_0 d)
      (mulf (Host.gather gather_S50000x64_S1650000x1_S1650000x64_1_0_n_n_0_1_164 h (wrapIdx s))
        (broadcastInDim S1650000x64 ![0, 1] bcast_S1650000x1_S1650000x64_0_1
          (broadcastInDim S1650000x1 ![0] bcast_S1650000_S1650000x1_0 nrm))))
    (broadcastInDim S50000x64 ![0, 1] bcast_S1x64_S50000x64_0_1 (broadcastInDim S1x64 ![1] bcast_S64_S1x64_1 b))

/-- The logistic function 1 / (1 + exp(-z)), entry by entry. -/
def sigmoidOf (z : Cf F S50000x64) : Cf F S50000x64 :=
  Host.divf (broadcastInDim S50000x64 ![] bcast_S_S50000x64 (constant S_ .f32 0x3F800000#32))
    (addf (broadcastInDim S50000x64 ![] bcast_S_S50000x64 (constant S_ .f32 0x3F800000#32)) (Host.exp (Host.negf z)))

/-- The whole network over two given dense products: `mm0 x w` in front of the first layer, `mm1 h w` in front of the second. -/
def gcn (mm0 : Cf F S50000x128 → Cf F S128x128 → Cf F S50000x128) (mm1 : Cf F S50000x128 → Cf F S128x64 → Cf F S50000x64)
    (x : Cf F S50000x128) (e : Ci F S2x1600000) (w0 : Cf F S128x128) (b0 : Cf F S128) (w1 : Cf F S128x64) (b1 : Cf F S64) :
    Cf F S50000x64 :=
  sigmoidOf (agg64 (mm1 (reluOf (agg128 (mm0 x w0) (srcOf e) (dstOf e) (normOf (srcOf e) (dstOf e)) b0)) w1)
    (srcOf e) (dstOf e) (normOf (srcOf e) (dstOf e)) b1)

end Cert.Gcn

end
-- ==== Proof.KernelHost.lean ====
/-
  The host side of the program with the two row-blocked products, read stretch by stretch.

  The buffers' contents at each boundary of @main are a fold from the launch memory.  Before the first product the
  host builds the source and target index vectors and the edges' coefficients from the edge list; between the two
  products it aggregates the first product over the graph, adds the bias and takes max(., 0); after the second it
  aggregates again, adds the bias and applies the logistic function.  Each stretch is read here as the pure function
  it applies to the buffers it finds, and every buffer a stretch or a product does not write is carried across it.
-/
import proofs.«179644_j13907104104963_1_alg».proof.Proof.Gen.KernelIdeal.Frame
import proofs.«179644_j13907104104963_1_alg».proof.Proof.GcnSpec
import Idealize.ShloMosaic.Lib.StableHlo.Run

set_option maxRecDepth 16384

noncomputable section

namespace Cert.KernelIdeal.HostSide

open Cert.KernelIdeal Cert.KernelIdeal.Gen Cert.Gcn
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The result lemmas applied by rewriting, for what a simp pass leaves inside a concatenate's operand list. -/
local macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-! ## Before the first product: the index vectors and the coefficients -/

theorem W3_src (c : Dev nD) : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp
  results_rw
  rfl

theorem W3_dst (c : Dev nD) : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results_simp
  results_rw
  rfl

theorem W3_norm (c : Dev nD) : W3 m ρ c (Proc.devRef .tc main_v29)
    = normOf (srcOf (m ((c : Thread nD τ).loc main_arg1))) (dstOf (m ((c : Thread nD τ).loc main_arg1))) := by
  show StableHlo.after hostOps0_2 (StableHlo.after hostOps0_1 (StableHlo.after hostOps0 (W0 m ρ c))) (Proc.devRef .tc main_v29) = _
  dsimp only [hostOps0, hostOps0_1, hostOps0_2]
  after_results_simp
  results_rw
  rfl

/-- No host operation before the first product writes an argument. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp <;> rfl
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results_simp <;> rfl
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp <;> rfl
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp <;> rfl
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results_simp <;> rfl

/-! ## Across the first product -/

/-- The first product writes its result buffer only: the index vectors, the coefficients and the arguments it does not
    read are carried across it. -/
theorem W4_src (c : Dev nD) : W4 m ρ c (Proc.devRef .tc main_v3) = W3 m ρ c (Proc.devRef .tc main_v3) := W4_of_ne m ρ c main_v3 (by decide)
theorem W4_dst (c : Dev nD) : W4 m ρ c (Proc.devRef .tc main_v6) = W3 m ρ c (Proc.devRef .tc main_v6) := W4_of_ne m ρ c main_v6 (by decide)
theorem W4_norm (c : Dev nD) : W4 m ρ c (Proc.devRef .tc main_v29) = W3 m ρ c (Proc.devRef .tc main_v29) := W4_of_ne m ρ c main_v29 (by decide)
theorem W4_arg3 (c : Dev nD) : W4 m ρ c (Proc.devRef .tc main_arg3) = W3 m ρ c (Proc.devRef .tc main_arg3) := W4_of_ne m ρ c main_arg3 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)

/-! ## Between the two products: the first layer's aggregation, the bias and max(., 0) -/

theorem W6_hidden (c : Dev nD) : W6 m ρ c (Proc.devRef .tc main_v47)
    = reluOf (agg128 (W4 m ρ c (Proc.devRef .tc main_v30)) (W4 m ρ c (Proc.devRef .tc main_v3)) (W4 m ρ c (Proc.devRef .tc main_v6))
        (W4 m ρ c (Proc.devRef .tc main_v29)) (W4 m ρ c (Proc.devRef .tc main_arg3))) := by
  show StableHlo.after hostOps1_1 (StableHlo.after hostOps1 (W4 m ρ c)) (Proc.devRef .tc main_v47) = _
  dsimp only [hostOps1, hostOps1_1]
  after_results_simp <;> rfl

theorem W6_src (c : Dev nD) : W6 m ρ c (Proc.devRef .tc main_v3) = W4 m ρ c (Proc.devRef .tc main_v3) := by
  show StableHlo.after hostOps1_1 (StableHlo.after hostOps1 (W4 m ρ c)) (Proc.devRef .tc main_v3) = _
  dsimp only [hostOps1, hostOps1_1]
  after_results_simp <;> rfl
theorem W6_dst (c : Dev nD) : W6 m ρ c (Proc.devRef .tc main_v6) = W4 m ρ c (Proc.devRef .tc main_v6) := by
  show StableHlo.after hostOps1_1 (StableHlo.after hostOps1 (W4 m ρ c)) (Proc.devRef .tc main_v6) = _
  dsimp only [hostOps1, hostOps1_1]
  after_results_simp <;> rfl
theorem W6_norm (c : Dev nD) : W6 m ρ c (Proc.devRef .tc main_v29) = W4 m ρ c (Proc.devRef .tc main_v29) := by
  show StableHlo.after hostOps1_1 (StableHlo.after hostOps1 (W4 m ρ c)) (Proc.devRef .tc main_v29) = _
  dsimp only [hostOps1, hostOps1_1]
  after_results_simp <;> rfl
theorem W6_arg4 (c : Dev nD) : W6 m ρ c (Proc.devRef .tc main_arg4) = W4 m ρ c (Proc.devRef .tc main_arg4) := by
  show StableHlo.after hostOps1_1 (StableHlo.after hostOps1 (W4 m ρ c)) (Proc.devRef .tc main_arg4) = _
  dsimp only [hostOps1, hostOps1_1]
  after_results_simp <;> rfl
theorem W6_arg5 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  dsimp only [hostOps1, hostOps1_1]
  after_results_simp <;> rfl

/-! ## Across the second product -/

theorem W7_src (c : Dev nD) : W7 m ρ c (Proc.devRef .tc main_v3) = W6 m ρ c (Proc.devRef .tc main_v3) := W7_of_ne m ρ c main_v3 (by decide)
theorem W7_dst (c : Dev nD) : W7 m ρ c (Proc.devRef .tc main_v6) = W6 m ρ c (Proc.devRef .tc main_v6) := W7_of_ne m ρ c main_v6 (by decide)
theorem W7_norm (c : Dev nD) : W7 m ρ c (Proc.devRef .tc main_v29) = W6 m ρ c (Proc.devRef .tc main_v29) := W7_of_ne m ρ c main_v29 (by decide)
theorem W7_arg5 (c : Dev nD) : W7 m ρ c (Proc.devRef .tc main_arg5) = W6 m ρ c (Proc.devRef .tc main_arg5) := W7_of_ne m ρ c main_arg5 (by decide)

/-! ## After the second product: the second layer's aggregation, the bias and the logistic function -/

theorem W8_out (c : Dev nD) : W8 m ρ c (Proc.devRef .tc main_v70)
    = sigmoidOf (agg64 (W7 m ρ c (Proc.devRef .tc main_v48)) (W7 m ρ c (Proc.devRef .tc main_v3)) (W7 m ρ c (Proc.devRef .tc main_v6))
        (W7 m ρ c (Proc.devRef .tc main_v29)) (W7 m ρ c (Proc.devRef .tc main_arg5))) := by
  show StableHlo.after hostOps2 (W7 m ρ c) (Proc.devRef .tc main_v70) = _
  dsimp only [hostOps2]
  after_results_simp <;> rfl

end Cert.KernelIdeal.HostSide

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.DenseProduct.lean ====
/-
  The textbook product of an [M, 128] array with a [128, N] array on the extended reals, and the host's dot_general
  with the plain product's dimension numbers read as that product.
-/
import proofs.«179644_j13907104104963_1_alg».proof.Proof.LibPlainDot

noncomputable section

namespace Cert.Dense

open Idealize.ShloMosaic Idealize.ShloMosaic.ValueIdx
open scoped BigOperators

/-- Entry (p, q) is the sum over k of x (p, k) * w (k, q). -/
def prodOf {M N : Nat} (x : FVec Ideal (⟨2, ![M, 128]⟩ : Shape) .f32) (w : FVec Ideal (⟨2, ![128, N]⟩ : Shape) .f32) :
    FVec Ideal (⟨2, ![M, N]⟩ : Shape) .f32 :=
  fun i => ∑ k : Fin 128, (x (ix2 (i 0 : Fin M) k) : EReal) * (w (ix2 k (i 1 : Fin N)) : EReal)

/-- The host's dot_general contracting the columns of x with the rows of w is that product. -/
theorem dotGeneral_eq_prodOf {M N : Nat}
    (D : DotDims (⟨2, ![M, 128]⟩ : Shape) (⟨2, ![128, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (x : FVec Ideal (⟨2, ![M, 128]⟩ : Shape) .f32) (w : FVec Ideal (⟨2, ![128, N]⟩ : Shape) .f32) :
    Host.dotGeneral D none x w = prodOf x w := by
  funext i
  obtain ⟨p, q, rfl⟩ : ∃ (p : Fin M) (q : Fin N), i = ix2 p q := ⟨i 0, i 1, eq_ix2 i⟩
  exact PlainDot.dotGeneral_apply D h1 h2 h3 h4 h5 h6 none .single x w p q

theorem hz : (![0, 0] : Fin 2 → Nat) = fun _ => 0 := funext fun a => by fin_cases a <;> rfl

end Cert.Dense

end
-- ==== Proof.ProductRegion0.lean ====
/-
  What the first row-blocked matrix product leaves in its result array.

  The region multiplies a [50000, 128] array by a [128, ncol] weight matrix, ten row blocks of 5000 rows each.  At a
  grid point the body loads its row block and the whole weight matrix, rounds both to bfloat16 (the identity on the
  extended reals) and stores their product into a zero accumulator.  So row r of the block at point t holds, in
  column q, the sum over k of X (5000 t + r, k) * W (k, q): the block is the restriction of ONE function of the two
  whole arrays to rows 5000 t .. 5000 t + 4999.  The ten blocks tile the result array, so after the region the
  array is that function everywhere.
-/
import proofs.«179644_j13907104104963_1_alg».proof.Proof.Gen.KernelIdeal.Frame
import proofs.«179644_j13907104104963_1_alg».proof.Proof.DenseProduct
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Dense
open Idealize.ShloMosaic Idealize.ShloMosaic.TcCoe Idealize.ShloMosaic.ValueIdx Idealize.SL.Sem
open Idealize.ShloMosaic.Pipeline (Dat)
open scoped BigOperators

/-- The number of columns of the weights and of the result; the weights' shape, a result block's and the result's. -/
local notation "ncol" => 128
local notation "Swt" => S128x128
local notation "Sblk" => S5000x128
local notation "Sres" => S50000x128

/-- Entry (p, q) of the body's product of a row block with the weights. -/
theorem pay0_apply (x0 : Vec Ideal S5000x128 .f32) (x1 : Vec Ideal Swt .f32) (p : Fin 5000) (q : Fin ncol) :
    k0_pay1 x0 x1 (ix2 p q) = ∑ k : Fin 128, (x0 (ix2 p k) : EReal) * (x1 (ix2 k q) : EReal) := by
  unfold k0_pay1
  try simp only [shapeCast_self]
  exact PlainDot.matmul_zero_apply dot_S5000x128_S128x128_S5000x128_1_0_0_1_n_n rfl rfl rfl rfl rfl rfl none _ _ p q

/-- A block entry whose row of the block and whose column of the weights are the whole arrays' row and column is
    the whole product's entry. -/
theorem pay0_eq_prodOf (x0 : Vec Ideal S5000x128 .f32) (x1 : Vec Ideal Swt .f32)
    (X : Vec Ideal S50000x128 .f32) (W : Vec Ideal Swt .f32) (j : (Sblk).Idx) (i : (Sres).Idx)
    (hx : ∀ k : Fin 128, x0 (ix2 (j 0 : Fin 5000) k) = X (ix2 (i 0 : Fin 50000) k))
    (hw : ∀ k : Fin 128, x1 (ix2 k (j 1 : Fin ncol)) = W (ix2 k (i 1 : Fin ncol))) :
    k0_pay1 x0 x1 j = prodOf X W i := by
  obtain ⟨p, q, rfl⟩ : ∃ (p : Fin 5000) (q : Fin ncol), j = ix2 p q := ⟨j 0, j 1, eq_ix2 j⟩
  rw [pay0_apply]
  unfold prodOf
  exact Finset.sum_congr rfl fun k _ => congrArg₂ (fun a b : EReal => a * b) (hx k) (hw k)

/-- The index maps over the ten points: the row block moves with the point, everything else stays at 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is rows 5000 t .. 5000 t + 4999 of the product of the two arrays as the region finds them. -/
theorem flushed0 (c : Dev nD) (t : Fin cfg0.N) :
    (dat0 V c).flushed 2 t = ((cfg0.win 2).blk t).view.read (Elt Ideal) (prodOf (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := Swt) hz]
  obtain ⟨e0, e1, e2, e3, e4, e5⟩ := idx0 t
  funext j
  show k0_pay1 (iblk0 V c 0 t) (iblk0 V c 1 t) j = prodOf (V c main_arg0) (V c main_arg2) (((cfg0.win 2).blk t).view.emb j)
  refine pay0_eq_prodOf _ _ _ _ j _ (fun k => ?_) (fun k => ?_)
  · show V c main_arg0 (((cfg0.win 0).blk t).view.emb (ix2 (j 0 : Fin 5000) k)) = V c main_arg0 (ix2 ((((cfg0.win 2).blk t).view.emb j) 0 : Fin 50000) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 128 + 1 * k.val = k.val; rw [e1]; omega
  · show V c main_arg2 (((cfg0.win 1).blk t).view.emb (ix2 k (j 1 : Fin ncol))) = V c main_arg2 (ix2 k ((((cfg0.win 2).blk t).view.emb j) 1 : Fin ncol))
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * ncol + 1 * (j 1).val = win0_2.index t (1 : Fin 2) * ncol + 1 * (j 1).val; rw [e3, e5]

/-- An index of the result array is in point t's block iff each coordinate is in the block's range on its axis. -/
theorem mem_blk0 (t : Fin cfg0.N) (i : (Sres).Idx) :
    i ∈ ((cfg0.win 2).blk t).view.set ↔ ∀ a : Fin 2, win0_2.index t a * (Sblk).size a ≤ (i a).val ∧ (i a).val < win0_2.index t a * (Sblk).size a + (Sblk).size a := by
  show i ∈ ((View.whole main_v30).slice (win0_2.rect t)).set ↔ _
  rw [View.set_slice_whole, Rect.mem_set_unit]
  exact Iff.rfl

/-- Row r of the result array lies in the block of point r / 5000: the ten blocks cover the array. -/
theorem cover0 (i : (Sres).Idx) : ∃ t : Fin cfg0.N, (cfg0.win 2).flush t = true ∧ i ∈ ((cfg0.win 2).blk t).view.set := by
  have hi0 : (i 0).val < 50000 := (i 0).isLt
  have hi1 : (i 1).val < ncol := (i 1).isLt
  have ht : (i 0).val / 5000 < grid0.N := by rw [N_0]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * ncol ≤ (i 1).val ∧ (i 1).val < win0_2.index ⟨(i 0).val / 5000, ht⟩ (1 : Fin 2) * ncol + ncol
    rw [e5]; omega

/-- After the region its result array is the product of the two arrays it found. -/
theorem final0 (c : Dev nD) : (dat0 V c).arrAt 2 cfg0.N = prodOf (V c main_arg0) (V c main_arg2) :=
  (dat0 V c).arrAt_eq_of_cover 2 _ (fun t _ => flushed0 V c t) cover0

end Cert.KernelIdeal.Region0

end
-- ==== Proof.ProductRegion1.lean ====
/-
  What the second row-blocked matrix product leaves in its result array.

  The region multiplies a [50000, 128] array by a [128, ncol] weight matrix, ten row blocks of 5000 rows each.  At a
  grid point the body loads its row block and the whole weight matrix, rounds both to bfloat16 (the identity on the
  extended reals) and stores their product into a zero accumulator.  So row r of the block at point t holds, in
  column q, the sum over k of X (5000 t + r, k) * W (k, q): the block is the restriction of ONE function of the two
  whole arrays to rows 5000 t .. 5000 t + 4999.  The ten blocks tile the result array, so after the region the
  array is that function everywhere.
-/
import proofs.«179644_j13907104104963_1_alg».proof.Proof.Gen.KernelIdeal.Frame
import proofs.«179644_j13907104104963_1_alg».proof.Proof.DenseProduct
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Dense
open Idealize.ShloMosaic Idealize.ShloMosaic.TcCoe Idealize.ShloMosaic.ValueIdx Idealize.SL.Sem
open Idealize.ShloMosaic.Pipeline (Dat)
open scoped BigOperators

/-- The number of columns of the weights and of the result; the weights' shape, a result block's and the result's. -/
local notation "ncol" => 64
local notation "Swt" => S128x64
local notation "Sblk" => S5000x64
local notation "Sres" => S50000x64

/-- Entry (p, q) of the body's product of a row block with the weights. -/
theorem pay1_apply (x0 : Vec Ideal S5000x128 .f32) (x1 : Vec Ideal Swt .f32) (p : Fin 5000) (q : Fin ncol) :
    k1_pay1 x0 x1 (ix2 p q) = ∑ k : Fin 128, (x0 (ix2 p k) : EReal) * (x1 (ix2 k q) : EReal) := by
  unfold k1_pay1
  try simp only [shapeCast_self]
  exact PlainDot.matmul_zero_apply dot_S5000x128_S128x64_S5000x64_1_0_0_1_n_n rfl rfl rfl rfl rfl rfl none _ _ p q

/-- A block entry whose row of the block and whose column of the weights are the whole arrays' row and column is
    the whole product's entry. -/
theorem pay1_eq_prodOf (x0 : Vec Ideal S5000x128 .f32) (x1 : Vec Ideal Swt .f32)
    (X : Vec Ideal S50000x128 .f32) (W : Vec Ideal Swt .f32) (j : (Sblk).Idx) (i : (Sres).Idx)
    (hx : ∀ k : Fin 128, x0 (ix2 (j 0 : Fin 5000) k) = X (ix2 (i 0 : Fin 50000) k))
    (hw : ∀ k : Fin 128, x1 (ix2 k (j 1 : Fin ncol)) = W (ix2 k (i 1 : Fin ncol))) :
    k1_pay1 x0 x1 j = prodOf X W i := by
  obtain ⟨p, q, rfl⟩ : ∃ (p : Fin 5000) (q : Fin ncol), j = ix2 p q := ⟨j 0, j 1, eq_ix2 j⟩
  rw [pay1_apply]
  unfold prodOf
  exact Finset.sum_congr rfl fun k _ => congrArg₂ (fun a b : EReal => a * b) (hx k) (hw k)

/-- The index maps over the ten points: the row block moves with the point, everything else stays at 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is rows 5000 t .. 5000 t + 4999 of the product of the two arrays as the region finds them. -/
theorem flushed1 (c : Dev nD) (t : Fin cfg1.N) :
    (dat1 V c).flushed 2 t = ((cfg1.win 2).blk t).view.read (Elt Ideal) (prodOf (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := Swt) hz]
  obtain ⟨e0, e1, e2, e3, e4, e5⟩ := idx1 t
  funext j
  show k1_pay1 (iblk1 V c 0 t) (iblk1 V c 1 t) j = prodOf (V c main_v47) (V c main_arg4) (((cfg1.win 2).blk t).view.emb j)
  refine pay1_eq_prodOf _ _ _ _ j _ (fun k => ?_) (fun k => ?_)
  · show V c main_v47 (((cfg1.win 0).blk t).view.emb (ix2 (j 0 : Fin 5000) k)) = V c main_v47 (ix2 ((((cfg1.win 2).blk t).view.emb j) 0 : Fin 50000) k)
    refine congrArg (V c main_v47) (funext fun a => Fin.ext ?_)
    match a with
    | ⟨0, _⟩ => show win1_0.index t (0 : Fin 2) * 5000 + 1 * (j 0).val = win1_2.index t (0 : Fin 2) * 5000 + 1 * (j 0).val; rw [e0, e4]
    | ⟨1, _⟩ => show win1_0.index t (1 : Fin 2) * 128 + 1 * k.val = k.val; rw [e1]; omega
  · show V c main_arg4 (((cfg1.win 1).blk t).view.emb (ix2 k (j 1 : Fin ncol))) = V c main_arg4 (ix2 k ((((cfg1.win 2).blk t).view.emb j) 1 : Fin ncol))
    refine congrArg (V c main_arg4) (funext fun a => Fin.ext ?_)
    match a with
    | ⟨0, _⟩ => show win1_1.index t (0 : Fin 2) * 128 + 1 * k.val = k.val; rw [e2]; omega
    | ⟨1, _⟩ => show win1_1.index t (1 : Fin 2) * ncol + 1 * (j 1).val = win1_2.index t (1 : Fin 2) * ncol + 1 * (j 1).val; rw [e3, e5]

/-- An index of the result array is in point t's block iff each coordinate is in the block's range on its axis. -/
theorem mem_blk1 (t : Fin cfg1.N) (i : (Sres).Idx) :
    i ∈ ((cfg1.win 2).blk t).view.set ↔ ∀ a : Fin 2, win1_2.index t a * (Sblk).size a ≤ (i a).val ∧ (i a).val < win1_2.index t a * (Sblk).size a + (Sblk).size a := by
  show i ∈ ((View.whole main_v48).slice (win1_2.rect t)).set ↔ _
  rw [View.set_slice_whole, Rect.mem_set_unit]
  exact Iff.rfl

/-- Row r of the result array lies in the block of point r / 5000: the ten blocks cover the array. -/
theorem cover1 (i : (Sres).Idx) : ∃ t : Fin cfg1.N, (cfg1.win 2).flush t = true ∧ i ∈ ((cfg1.win 2).blk t).view.set := by
  have hi0 : (i 0).val < 50000 := (i 0).isLt
  have hi1 : (i 1).val < ncol := (i 1).isLt
  have ht : (i 0).val / 5000 < grid1.N := by rw [N_1]; omega
  obtain ⟨-, -, -, -, e4, e5⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * ncol ≤ (i 1).val ∧ (i 1).val < win1_2.index ⟨(i 0).val / 5000, ht⟩ (1 : Fin 2) * ncol + ncol
    rw [e5]; omega

/-- After the region its result array is the product of the two arrays it found. -/
theorem final1 (c : Dev nD) : (dat1 V c).arrAt 2 cfg1.N = prodOf (V c main_v47) (V c main_arg4) :=
  (dat1 V c).arrAt_eq_of_cover 2 _ (fun t _ => flushed1 V c t) cover1

end Cert.KernelIdeal.Region1

end
-- ==== Proof.KernelValue.lean ====
/-
  The program with the two row-blocked products computes the network over the textbook products.

  Reading @main's fold from its end: the result buffer is the logistic function of the second aggregation of the
  second region's result; that region's result is the product of what it found (the first layer's output and W1);
  the first layer's output is max(., 0) of the first aggregation of the first region's result, the product of x and
  W0; and the index vectors, the coefficients and the arguments are carried unchanged across every stretch and
  product that does not write them, back to the launch memory.
-/
import proofs.«179644_j13907104104963_1_alg».proof.Proof.KernelHost
import proofs.«179644_j13907104104963_1_alg».proof.Proof.ProductRegion0
import proofs.«179644_j13907104104963_1_alg».proof.Proof.ProductRegion1

set_option maxRecDepth 16384

noncomputable section

namespace Cert.KernelIdeal.Value

open Cert.KernelIdeal Cert.KernelIdeal.Gen Cert.KernelIdeal.HostSide Cert.Gcn Cert.Dense
open Idealize.ShloMosaic Idealize.ShloMosaic.TcCoe Idealize.SL.Sem

variable (m : (ℓ : Loc nD τ sig) → Buf (Elt Ideal) ℓ) (ρ : Dev nD → PrngReg)

/-- At the first region's exit its result buffer holds the product of what the region found in its two operands. -/
theorem W4_prod (c : Dev nD) : W4 m ρ c (Proc.devRef .tc main_v30)
    = prodOf (W3 m ρ c (Proc.devRef .tc main_arg0)) (W3 m ρ c (Proc.devRef .tc main_arg2)) :=
  (W4_arr m ρ c 2).trans (Region0.final0 (V3 m ρ) c)

/-- At the second region's exit its result buffer holds the product of what the region found in its two operands. -/
theorem W7_prod (c : Dev nD) : W7 m ρ c (Proc.devRef .tc main_v48)
    = prodOf (W6 m ρ c (Proc.devRef .tc main_v47)) (W6 m ρ c (Proc.devRef .tc main_arg4)) :=
  (W7_arr m ρ c 2).trans (Region1.final1 (V6 m ρ) c)

/-- The result buffer at the last boundary is the network over the textbook products, of the launch memory's arguments. -/
theorem result_eq (c : Dev nD) : W8 m ρ c (Proc.devRef .tc main_v70)
    = gcn (F := Ideal) (fun x w => prodOf x w) (fun h w => prodOf h w)
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  rw [W8_out, W7_prod, W7_src, W7_dst, W7_norm, W7_arg5, W6_hidden, W6_src, W6_dst, W6_norm, W6_arg4, W6_arg5,
    W4_prod, W4_src, W4_dst, W4_norm, W4_arg3, W4_arg4, W4_arg5,
    W3_src, W3_dst, W3_norm, W3_arg0, W3_arg2, W3_arg3, W3_arg4, W3_arg5]
  rfl

end Cert.KernelIdeal.Value

end
-- ==== Proof.RefValue.lean ====
/-
  The reference's result as the same network over the host's two dot_generals.

  The reference computes x W0 and h W1 by dot_general and, around them, exactly the host operations the other program
  applies: the index vectors with the self-loops, the degrees and the edges' coefficients (which it computes once per
  layer, the same term twice), the two aggregations with their biases, max(., 0) and the logistic function.  Its run's
  composed term is therefore the network function with the two dot_generals in the places of the dense products:
  the two terms are the same operations applied to the same arguments in the same order.
-/
import proofs.«179644_j13907104104963_1_alg».proof.Proof.RefRun
import proofs.«179644_j13907104104963_1_alg».proof.Proof.GcnSpec

set_option maxRecDepth 16384

noncomputable section

namespace Cert.ReferenceIdeal.RefValue

open Cert.ReferenceIdeal Cert.ReferenceIdeal.ValueP Cert.Gcn
open Idealize.ShloMosaic Idealize.ShloMosaic.TcCoe Idealize.SL.Sem

variable {F : FTy → Type} [FloatOps F]

theorem res_eq_gcn (m : (ℓ : Loc nD τ sig) → Buf (Elt F) ℓ) (c : Dev nD) :
    res_main_v93 m c
      = gcn (F := F) (fun x w => Host.dotGeneral dot_S50000x128_S128x128_S50000x128_1_0_0_1_n_n none x w)
          (fun h w => Host.dotGeneral dot_S50000x128_S128x64_S50000x64_1_0_0_1_n_n none h w)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v93 gcn sigmoidOf agg64 agg128 reluOf normOf dinvOf degOf wrapIdx srcOf dstOf
  rfl

end Cert.ReferenceIdeal.RefValue

end
-- ==== Proof.lean ====
/-
  A two-layer graph convolution whose two dense products x W0 and h W1 are computed by a row-blocked kernel (ten blocks
  of 5000 rows, bfloat16 operands, a float32 zero accumulator), against the same network with the products as the
  host's dot_general.

  On the extended reals the rounding to bfloat16 is the identity, so a block of the kernel's product is rows
  5000 t .. 5000 t + 4999 of the textbook product, the ten blocks tile the result, and the region leaves the textbook
  product of the arrays it found (ProductRegion0, ProductRegion1); the host's dot_general is the same sum
  (DenseProduct).  Everything around the two products is the same host operations in both programs, applied to the
  same values: the source and target index vectors with the self-loops, the edges' coefficients from the degrees, the
  two aggregations with their biases, max(., 0) and the logistic function (GcnSpec; the reference computes the
  coefficients once per layer, the same term twice).  So both results are ONE function of the arguments, with no law of
  arithmetic used beyond reading the two products as the same sum: the precondition is never opened.
  The three frames: the two programs with the kernel by their generated frame certificates; the reference by its run
  with the result dropped.  No operation was rewritten by the idealization, so there is nothing to preserve.
-/
import proofs.«179644_j13907104104963_1_alg».proof.Defs
import proofs.«179644_j13907104104963_1_alg».proof.Proof.Gen.Kernel.Frame
import proofs.«179644_j13907104104963_1_alg».proof.Proof.Gen.KernelIdeal.Frame
import proofs.«179644_j13907104104963_1_alg».proof.Proof.Gen.Pre_finite_inputs
import proofs.«179644_j13907104104963_1_alg».proof.Proof.KernelRun
import proofs.«179644_j13907104104963_1_alg».proof.Proof.KernelValue
import proofs.«179644_j13907104104963_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Gcn Cert.Dense

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The two dot_generals of the reference are the textbook products. -/
theorem dot0_eq : (fun (x : Cf Ideal Cert.KernelIdeal.S50000x128) (w : Cf Ideal Cert.KernelIdeal.S128x128) =>
      Host.dotGeneral (φ₁ := .f32) (φ₂ := .f32) Cert.ReferenceIdeal.dot_S50000x128_S128x128_S50000x128_1_0_0_1_n_n none x w)
    = fun x w => prodOf x w :=
  funext fun x => funext fun w => dotGeneral_eq_prodOf _ rfl rfl rfl rfl rfl rfl x w

theorem dot1_eq : (fun (h : Cf Ideal Cert.KernelIdeal.S50000x128) (w : Cf Ideal Cert.KernelIdeal.S128x64) =>
      Host.dotGeneral (φ₁ := .f32) (φ₂ := .f32) Cert.ReferenceIdeal.dot_S50000x128_S128x64_S50000x64_1_0_0_1_n_n none h w)
    = fun h w => prodOf h w :=
  funext fun h => funext fun w => dotGeneral_eq_prodOf _ rfl rfl rfl rfl rfl rfl h w

/-- Both programs end with the network over the textbook products, of arguments that agree. -/
theorem algebraic : Cert.algebraic_KernelIdeal_ReferenceIdeal := by
  intro m ρ m' ρ' _ hagree
  refine ⟨fun c => gcn (F := Ideal) (fun x w => prodOf x w) (fun h w => prodOf h w)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Value.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq_gcn]
    obtain ⟨a0, a1, a2, a3, a4, a5⟩ := hagree c
    rw [a0, a1, a2, a3, a4, a5]
    exact congrArg₂ (fun f g => gcn (F := Ideal) f g _ _ _ _ _ _) dot0_eq dot1_eq

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
